-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel

variable [Facts]

def fn {F : FTy → Type} [FloatOps F] (main_arg0 : FVec F S32x256x56x56 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  main_v3
-- ==== Kernel.lean ====
abbrev S32x256x56x56 : Shape := ⟨4, ![32, 256, 56, 56]⟩
abbrev S8x256x8x56 : Shape := ⟨4, ![8, 256, 8, 56]⟩
abbrev S8x32x8x8x56 : Shape := ⟨5, ![8, 32, 8, 8, 56]⟩
abbrev S8x32x8x56 : Shape := ⟨4, ![8, 32, 8, 56]⟩
abbrev S8x32x1x8x56 : Shape := ⟨5, ![8, 32, 1, 8, 56]⟩

abbrev nBuf : Space → Nat
  | .hbm => 2
  | .vmem => 4
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .local _ .vmem, ⟨0, _⟩ => ⟨S8x256x8x56, .f32⟩
  | .local _ .vmem, ⟨1, _⟩ => ⟨S8x256x8x56, .f32⟩
  | .local _ .vmem, ⟨2, _⟩ => ⟨S8x256x8x56, .f32⟩
  | .local _ .vmem, ⟨3, _⟩ => ⟨S8x256x8x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x256x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x8x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x256x8x56_S8x256x8x56_0_0_0_0 : ∀ a, (![0, 0, 0, 0] : Fin 4 → Nat) a + S8x256x8x56.size a ≤ S8x256x8x56.size a
  h_S8x256x8x56 : 0 < S8x256x8x56.numel
  shapeCasts_S8x256x8x56_S8x32x8x8x56 : S8x256x8x56.ShapeCasts S8x32x8x8x56
  reduces_S8x32x8x8x56_S8x32x8x56 : S8x32x8x8x56.Reduces [2] S8x32x8x56
  shapeCasts_S8x32x8x56_S8x32x1x8x56 : S8x32x8x56.ShapeCasts S8x32x1x8x56
  broadcasts_S8x32x1x8x56_S8x32x8x8x56 : S8x32x1x8x56.Broadcasts S8x32x8x8x56
  shapeCasts_S8x32x8x8x56_S8x256x8x56 : S8x32x8x8x56.ShapeCasts S8x256x8x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x56.size a ≤ S32x256x56x56.size a
  hwx0_0 : ∀ i : grid0.Coords, EltTy.bits .f32 = 32 ∨ (Rect.block (s := S32x256x56x56) S8x256x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x8x56.size a ≤ S32x256x56x56.size a
  hwx0_1 : ∀ i : grid0.Coords, EltTy.bits .f32 = 32 ∨ (Rect.block (s := S32x256x56x56) S8x256x8x56.size (cc0_transform_1 i) (hinb0_1 i)).WholeWords (EltTy.packing .f32)

variable [Facts₀]

abbrev win0_0 : Pipeline.Window sig grid0 :=
  Pipeline.Window.ofSpec (Memref.whole main_arg0) S8x256x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x8x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S32x32x8x56x56 : Shape := ⟨5, ![32, 32, 8, 56, 56]⟩
abbrev S_ : Shape := ⟨0, ![]⟩
abbrev S32x32x56x56 : Shape := ⟨4, ![32, 32, 56, 56]⟩
abbrev S32x32x1x56x56 : Shape := ⟨5, ![32, 32, 1, 56, 56]⟩

abbrev nBuf : Space → Nat
  | .hbm => 11
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S32x32x8x56x56, .f32⟩
  | .hbm, ⟨2, _⟩ => ⟨S_, .f32⟩
  | .hbm, ⟨3, _⟩ => ⟨S32x32x56x56, .f32⟩
  | .hbm, ⟨4, _⟩ => ⟨S32x32x1x56x56, .f32⟩
  | .hbm, ⟨5, _⟩ => ⟨S32x32x8x56x56, .f32⟩
  | .hbm, ⟨6, _⟩ => ⟨S32x32x8x56x56, .f32⟩
  | .hbm, ⟨7, _⟩ => ⟨S_, .f32⟩
  | .hbm, ⟨8, _⟩ => ⟨S32x32x8x56x56, .f32⟩
  | .hbm, ⟨9, _⟩ => ⟨S32x32x8x56x56, .f32⟩
  | .hbm, ⟨10, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S32x256x56x56_S32x32x8x56x56 : S32x256x56x56.ShapeCasts S32x32x8x56x56
  reducesTo_S32x32x8x56x56_S32x32x56x56_d2 : S32x32x8x56x56.ReducesTo [2] S32x32x56x56
  h_S_ : 0 < S_.numel
  bcast_S32x32x56x56_S32x32x1x56x56_0_1_3_4 : S32x32x56x56.BroadcastsInDim S32x32x1x56x56 (![0, 1, 3, 4] : Fin 4 → Fin S32x32x1x56x56.rank)
  bcast_S32x32x1x56x56_S32x32x8x56x56_0_1_2_3_4 : S32x32x1x56x56.BroadcastsInDim S32x32x8x56x56 (![0, 1, 2, 3, 4] : Fin 5 → Fin S32x32x8x56x56.rank)
  bcast_S_S32x32x8x56x56 : S_.BroadcastsInDim S32x32x8x56x56 (![] : Fin 0 → Fin S32x32x8x56x56.rank)
  shapeCasts_S32x32x8x56x56_S32x256x56x56 : S32x32x8x56x56.ShapeCasts S32x256x56x56

variable [Facts₀]

class Facts : Prop extends Facts₀ where

variable [Facts]
-- ==== Proof.GroupProduct.lean ====
/-
  Grouped channel products, the mathematics of this certificate.

  The 256 channels of an array of shape [32, 256, 56, 56] fall into 32 groups of eight consecutive channels. The result
  at (b, c, h, w) is the entry there, times the sum of the eight entries of c's group at the same (b, h, w), divided by
  the number of groups, 32. One program multiplies by the dyadic 2⁻⁵, the other divides by 32: on the extended reals the
  quotient by a nonzero real IS the product with its reciprocal, at the infinities too, so no finiteness is needed.
-/
import Idealize.ShloMosaic.PureOps.Ideal
import Idealize.ShloMosaic.PureOps.Ideal.Laws
import Idealize.ShloMosaic.Lib.ValueIdx

noncomputable section

open scoped BigOperators

namespace Cert.GroupProduct

open Idealize.ShloMosaic Idealize.ShloMosaic.ValueIdx

/-- Member `k` of the group of eight consecutive channels that holds channel `c`. -/
def groupChan (c : Fin 256) (k : Fin 8) : Fin 256 :=
  ⟨8 * (c.val / 8) + k.val, by have hc := c.isLt; have hk := k.isLt; omega⟩

theorem groupChan_val (c : Fin 256) (k : Fin 8) : (groupChan c k).val = 8 * (c.val / 8) + k.val := rfl

/-- The result array as one function of the argument array: the entry, times its group's sum, times 2⁻⁵ (the word
    `0x3D000000`). -/
def groupProduct (x : (⟨4, ![32, 256, 56, 56]⟩ : Shape).Idx → EReal) : (⟨4, ![32, 256, 56, 56]⟩ : Shape).Idx → EReal :=
  fun i => x i * (∑ k : Fin 8, x (ix4 (i 0) (groupChan (i 1) k) (i 2) (i 3))) * Ideal.ofBits .f32 0x3D000000#32

/-- The word `0x42000000` denotes the real 32. -/
theorem ofBits_32 : Ideal.ofBits .f32 0x42000000#32 = ((32 : ℝ) : EReal) := by
  simp [Ideal.ofBits, Ideal.ieee, -EReal.coe_mul]; norm_num

/-- The word `0x3D000000` denotes the real 1/32. -/
theorem ofBits_inv32 : Ideal.ofBits .f32 0x3D000000#32 = ((1 / 32 : ℝ) : EReal) := by
  simp [Ideal.ofBits, Ideal.ieee, -EReal.coe_mul]; norm_num

/-- One entry: the quotient by 32 of the entry times (zero plus the group's sum) is the entry times the sum times 2⁻⁵,
    for every pair of extended reals. -/
theorem div32_eq_mul_inv32 (a s : EReal) :
    Ideal.div (a * (Ideal.ofBits .f32 0x00000000#32 + s)) (Ideal.ofBits .f32 0x42000000#32)
      = a * s * Ideal.ofBits .f32 0x3D000000#32 := by
  rw [Ideal.ofBits_zero_f32, zero_add, ofBits_32, ofBits_inv32, Ideal.div_coe (by norm_num : (32 : ℝ) ≠ 0)]

/-- A block of the grouped product. Let `B` be the restriction of the array `X` along an embedding `e` of the block's
    indices that keeps the channel coordinate and commutes with moving inside a group. Then the body's formula over the
    block, at block index `y`, is the grouped product of the whole array at `e y`: a group never leaves its block. -/
theorem block_eq_groupProduct (X : (⟨4, ![32, 256, 56, 56]⟩ : Shape).Idx → EReal) (B : (⟨4, ![8, 256, 8, 56]⟩ : Shape).Idx → EReal)
    (e : (⟨4, ![8, 256, 8, 56]⟩ : Shape).Idx → (⟨4, ![32, 256, 56, 56]⟩ : Shape).Idx)
    (hB : ∀ y, B y = X (e y))
    (he : ∀ y (k : Fin 8), e (ix4 (y 0) (groupChan (y 1) k) (y 2) (y 3)) = ix4 (e y 0) (groupChan (e y 1) k) (e y 2) (e y 3))
    (y : (⟨4, ![8, 256, 8, 56]⟩ : Shape).Idx) :
    B y * (∑ k : Fin 8, B (ix4 (y 0) (groupChan (y 1) k) (y 2) (y 3))) * Ideal.ofBits .f32 0x3D000000#32
      = groupProduct X (e y) := by
  have hs : (∑ k : Fin 8, B (ix4 (y 0) (groupChan (y 1) k) (y 2) (y 3)))
      = ∑ k : Fin 8, X (ix4 (e y 0) (groupChan (e y 1) k) (e y 2) (e y 3)) :=
    Finset.sum_congr rfl fun k _ => (hB _).trans (congrArg X (he y k))
  show _ = X (e y) * (∑ k : Fin 8, X (ix4 (e y 0) (groupChan (e y 1) k) (e y 2) (e y 3))) * Ideal.ofBits .f32 0x3D000000#32
  rw [hB y, hs]

end Cert.GroupProduct

end
-- ==== Proof.ReferenceRead.lean ====
/-
  The reference read at an index. It views the channel axis as 32 groups of eight, sums each group, broadcasts the sums
  back over the group, multiplies entry by entry, divides by 32 and flattens the two axes again. Reading the result at
  (b, c, h, w): splitting c into (c / 8, c % 8) and joining again is the identity, and member k of the group summed there
  sits at channel 8 · (c / 8) + k. So the entry is (x · (0 + Σ of the group)) / 32, the grouped product.
-/
import proofs.«160404_j85985245265995_1_alg».proof.Proof.Gen.ReferenceIdeal.Read
import proofs.«160404_j85985245265995_1_alg».proof.Proof.GroupProduct

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GroupProduct

/-- Flattening (group, member) back to a channel undoes the split: the flat position of an index is unchanged. -/
theorem split_join (i : S32x256x56x56.Idx) : idx_main_v0 (idx_main_v7 i) = i := by
  have h0 : (i 0).val < 32 := (i 0).isLt
  have h1 : (i 1).val < 256 := (i 1).isLt
  have h2 : (i 2).val < 56 := (i 2).isLt
  have h3 : (i 3).val < 56 := (i 3).isLt
  have hQ : (((((((((i 0).val * 256 + (i 1).val) * 56 + (i 2).val) * 56 + (i 3).val) / 802816) * 32 + ((((i 0).val * 256 + (i 1).val) * 56 + (i 2).val) * 56 + (i 3).val) / 25088 % 32) * 8 + ((((i 0).val * 256 + (i 1).val) * 56 + (i 2).val) * 56 + (i 3).val) / 3136 % 8) * 56 + ((((i 0).val * 256 + (i 1).val) * 56 + (i 2).val) * 56 + (i 3).val) / 56 % 56) * 56 + ((((i 0).val * 256 + (i 1).val) * 56 + (i 2).val) * 56 + (i 3).val) % 56) = ((((i 0).val * 256 + (i 1).val) * 56 + (i 2).val) * 56 + (i 3).val) := by omega
  funext a; apply Fin.ext
  match a with
  | ⟨0, _⟩ => show (((((((((i 0).val * 256 + (i 1).val) * 56 + (i 2).val) * 56 + (i 3).val) / 802816) * 32 + ((((i 0).val * 256 + (i 1).val) * 56 + (i 2).val) * 56 + (i 3).val) / 25088 % 32) * 8 + ((((i 0).val * 256 + (i 1).val) * 56 + (i 2).val) * 56 + (i 3).val) / 3136 % 8) * 56 + ((((i 0).val * 256 + (i 1).val) * 56 + (i 2).val) * 56 + (i 3).val) / 56 % 56) * 56 + ((((i 0).val * 256 + (i 1).val) * 56 + (i 2).val) * 56 + (i 3).val) % 56) / 802816 = (i 0).val; rw [hQ]; omega
  | ⟨1, _⟩ => show (((((((((i 0).val * 256 + (i 1).val) * 56 + (i 2).val) * 56 + (i 3).val) / 802816) * 32 + ((((i 0).val * 256 + (i 1).val) * 56 + (i 2).val) * 56 + (i 3).val) / 25088 % 32) * 8 + ((((i 0).val * 256 + (i 1).val) * 56 + (i 2).val) * 56 + (i 3).val) / 3136 % 8) * 56 + ((((i 0).val * 256 + (i 1).val) * 56 + (i 2).val) * 56 + (i 3).val) / 56 % 56) * 56 + ((((i 0).val * 256 + (i 1).val) * 56 + (i 2).val) * 56 + (i 3).val) % 56) / 3136 % 256 = (i 1).val; rw [hQ]; omega
  | ⟨2, _⟩ => show (((((((((i 0).val * 256 + (i 1).val) * 56 + (i 2).val) * 56 + (i 3).val) / 802816) * 32 + ((((i 0).val * 256 + (i 1).val) * 56 + (i 2).val) * 56 + (i 3).val) / 25088 % 32) * 8 + ((((i 0).val * 256 + (i 1).val) * 56 + (i 2).val) * 56 + (i 3).val) / 3136 % 8) * 56 + ((((i 0).val * 256 + (i 1).val) * 56 + (i 2).val) * 56 + (i 3).val) / 56 % 56) * 56 + ((((i 0).val * 256 + (i 1).val) * 56 + (i 2).val) * 56 + (i 3).val) % 56) / 56 % 56 = (i 2).val; rw [hQ]; omega
  | ⟨3, _⟩ => show (((((((((i 0).val * 256 + (i 1).val) * 56 + (i 2).val) * 56 + (i 3).val) / 802816) * 32 + ((((i 0).val * 256 + (i 1).val) * 56 + (i 2).val) * 56 + (i 3).val) / 25088 % 32) * 8 + ((((i 0).val * 256 + (i 1).val) * 56 + (i 2).val) * 56 + (i 3).val) / 3136 % 8) * 56 + ((((i 0).val * 256 + (i 1).val) * 56 + (i 2).val) * 56 + (i 3).val) / 56 % 56) * 56 + ((((i 0).val * 256 + (i 1).val) * 56 + (i 2).val) * 56 + (i 3).val) % 56) % 56 = (i 3).val; rw [hQ]; omega

/-- Member `k` of the group summed for channel `c` is channel 8 · (c / 8) + k, at the same batch, row and column. -/
theorem group_member (i : S32x256x56x56.Idx) (k : Fin 8) :
    idx_main_v0 (idx_main_v1 (idx_main_v2 (idx_main_v3 (idx_main_v7 i))) k) = ix4 (i 0) (groupChan (i 1) k) (i 2) (i 3) := by
  have h0 : (i 0).val < 32 := (i 0).isLt
  have h1 : (i 1).val < 256 := (i 1).isLt
  have h2 : (i 2).val < 56 := (i 2).isLt
  have h3 : (i 3).val < 56 := (i 3).isLt
  have hk : k.val < 8 := k.isLt
  have e0 : ((((i 0).val * 256 + (i 1).val) * 56 + (i 2).val) * 56 + (i 3).val) / 802816 = (i 0).val := by omega
  have e1 : ((((i 0).val * 256 + (i 1).val) * 56 + (i 2).val) * 56 + (i 3).val) / 25088 % 32 = (i 1).val / 8 := by omega
  have e3 : ((((i 0).val * 256 + (i 1).val) * 56 + (i 2).val) * 56 + (i 3).val) / 56 % 56 = (i 2).val := by omega
  have e4 : ((((i 0).val * 256 + (i 1).val) * 56 + (i 2).val) * 56 + (i 3).val) % 56 = (i 3).val := by omega
  have hQ : (((((((((i 0).val * 256 + (i 1).val) * 56 + (i 2).val) * 56 + (i 3).val) / 802816) * 32 + ((((i 0).val * 256 + (i 1).val) * 56 + (i 2).val) * 56 + (i 3).val) / 25088 % 32) * 8 + k.val) * 56 + ((((i 0).val * 256 + (i 1).val) * 56 + (i 2).val) * 56 + (i 3).val) / 56 % 56) * 56 + ((((i 0).val * 256 + (i 1).val) * 56 + (i 2).val) * 56 + (i 3).val) % 56) = ((((((i 0).val) * 32 + (i 1).val / 8) * 8 + k.val) * 56 + (i 2).val) * 56 + (i 3).val) := by rw [e0, e1, e3, e4]
  funext a; apply Fin.ext
  match a with
  | ⟨0, _⟩ => show (((((((((i 0).val * 256 + (i 1).val) * 56 + (i 2).val) * 56 + (i 3).val) / 802816) * 32 + ((((i 0).val * 256 + (i 1).val) * 56 + (i 2).val) * 56 + (i 3).val) / 25088 % 32) * 8 + k.val) * 56 + ((((i 0).val * 256 + (i 1).val) * 56 + (i 2).val) * 56 + (i 3).val) / 56 % 56) * 56 + ((((i 0).val * 256 + (i 1).val) * 56 + (i 2).val) * 56 + (i 3).val) % 56) / 802816 = (i 0).val; rw [hQ]; omega
  | ⟨1, _⟩ => show (((((((((i 0).val * 256 + (i 1).val) * 56 + (i 2).val) * 56 + (i 3).val) / 802816) * 32 + ((((i 0).val * 256 + (i 1).val) * 56 + (i 2).val) * 56 + (i 3).val) / 25088 % 32) * 8 + k.val) * 56 + ((((i 0).val * 256 + (i 1).val) * 56 + (i 2).val) * 56 + (i 3).val) / 56 % 56) * 56 + ((((i 0).val * 256 + (i 1).val) * 56 + (i 2).val) * 56 + (i 3).val) % 56) / 3136 % 256 = 8 * ((i 1).val / 8) + k.val; rw [hQ]; omega
  | ⟨2, _⟩ => show (((((((((i 0).val * 256 + (i 1).val) * 56 + (i 2).val) * 56 + (i 3).val) / 802816) * 32 + ((((i 0).val * 256 + (i 1).val) * 56 + (i 2).val) * 56 + (i 3).val) / 25088 % 32) * 8 + k.val) * 56 + ((((i 0).val * 256 + (i 1).val) * 56 + (i 2).val) * 56 + (i 3).val) / 56 % 56) * 56 + ((((i 0).val * 256 + (i 1).val) * 56 + (i 2).val) * 56 + (i 3).val) % 56) / 56 % 56 = (i 2).val; rw [hQ]; omega
  | ⟨3, _⟩ => show (((((((((i 0).val * 256 + (i 1).val) * 56 + (i 2).val) * 56 + (i 3).val) / 802816) * 32 + ((((i 0).val * 256 + (i 1).val) * 56 + (i 2).val) * 56 + (i 3).val) / 25088 % 32) * 8 + k.val) * 56 + ((((i 0).val * 256 + (i 1).val) * 56 + (i 2).val) * 56 + (i 3).val) / 56 % 56) * 56 + ((((i 0).val * 256 + (i 1).val) * 56 + (i 2).val) * 56 + (i 3).val) % 56) % 56 = (i 3).val; rw [hQ]; omega

/-- The reference's result array is the grouped product of its argument array. -/
theorem reference_eq (x : (⟨S32x256x56x56, .f32⟩ : BufTy).Contents (Elt Ideal)) :
    val_main_v7 (F := Ideal) x = groupProduct x := by
  funext i
  have hs : (∑ k : Fin 8, val_main_v0 (F := Ideal) x (idx_main_v1 (idx_main_v2 (idx_main_v3 (idx_main_v7 i))) k))
      = ∑ k : Fin 8, x (ix4 (i 0) (groupChan (i 1) k) (i 2) (i 3)) :=
    Finset.sum_congr rfl fun k _ => (val_main_v0_apply x _).trans (congrArg x (group_member i k))
  rw [val_main_v7_apply, val_main_v6_apply, val_main_v4_apply, val_main_v0_apply, split_join, val_main_v3_apply,
    val_main_v2_apply, val_main_v1_apply, hs, val_main_v5_apply, val_main_cst_0_apply, val_main_cst_apply]
  exact div32_eq_mul_inv32 _ _

end Cert.ReferenceIdeal.RefValue

end
-- ==== Proof.BodyRead.lean ====
/-
  The kernel body read at an index of its block. The body views the block's channel axis as 32 groups of eight, sums each
  group, broadcasts the sum back over its group, multiplies entry by entry, scales by 2⁻⁵ and flattens again. At block
  index (b, c, h, w) the stored value is therefore the entry there, times the sum over k < 8 of the entries at channel
  8 · (c / 8) + k of the same (b, h, w), times 2⁻⁵. The sum over the group axis is a finite sum at the ideal values, and
  member k of group c / 8 has the flat position of channel 8 · (c / 8) + k.
-/
import proofs.«160404_j85985245265995_1_alg».proof.Proof.Gen.KernelIdeal.Value
import proofs.«160404_j85985245265995_1_alg».proof.Proof.GroupProduct
import Idealize.ShloMosaic.PureOps.Ideal.Laws
import Idealize.ShloMosaic.Lib.Pipeline.Value
import Idealize.ShloMosaic.Lib.ValueIdx

noncomputable section

open scoped BigOperators

namespace Cert.KernelIdeal.BodyValue

open Cert.KernelIdeal Cert.KernelIdeal.Gen Idealize.ShloMosaic Idealize.ShloMosaic.ValueIdx
open Cert.GroupProduct

/-- The group sums of a block, read where block index `y` reads them: the sum of the eight members of `y`'s group. -/
theorem groupSum_apply (P0 : Vec Ideal S8x256x8x56 .f32) (y : S8x256x8x56.Idx) :
    (multiReduction (F := Ideal) .add [2] S8x32x8x56 (shapeCast S8x32x8x8x56 P0 shapeCasts_S8x256x8x56_S8x32x8x8x56) 0x00000000#32
        reduces_S8x32x8x8x56_S8x32x8x56 (.inl rfl) rfl) (Value.ix1_1 y)
      = ∑ k : Fin 8, P0 (ix4 (y 0) (groupChan (y 1) k) (y 2) (y 3)) := by
  have hy0 : (y 0).val < 8 := (y 0).isLt
  have hy1 : (y 1).val < 256 := (y 1).isLt
  have hy2 : (y 2).val < 8 := (y 2).isLt
  have hy3 : (y 3).val < 56 := (y 3).isLt
  refine (Ideal.multiReduction_add_single _ _ reduces_S8x32x8x8x56_S8x32x8x56 (.inl rfl) rfl (Value.ix1_1 y)).trans ?_
  refine Finset.sum_congr rfl fun k _ => ?_
  have hk : k.val < 8 := k.isLt
  refine shapeCast_apply P0 _ _ _ ?_
  rw [Shape.rowMajor_val_four, Shape.rowMajor_val_five]
  show (((y 0).val * 256 + (8 * ((y 1).val / 8) + k.val)) * 8 + (y 2).val) * 56 + (y 3).val
    = ((((y 0).val * 32 + (y 1).val / 8) * 8 + k.val) * 8 + (y 2).val) * 56 + (y 3).val
  omega

/-- What the body leaves at block index `y`: the entry, times its group's sum, times 2⁻⁵. -/
theorem body_apply (P0 : Vec Ideal S8x256x8x56 .f32) (y : S8x256x8x56.Idx) :
    Value.E1 (F := Ideal) P0 y
      = P0 y * (∑ k : Fin 8, P0 (ix4 (y 0) (groupChan (y 1) k) (y 2) (y 3))) * Ideal.ofBits .f32 0x3D000000#32 := by
  have e0 : Value.ix1_0 y = y :=
    funext fun a => Fin.ext (by match a with | ⟨0, _⟩ => rfl | ⟨1, _⟩ => rfl | ⟨2, _⟩ => rfl | ⟨3, _⟩ => rfl)
  unfold Value.E1
  rw [e0]
  exact congrArg (fun s : EReal => P0 y * s * Ideal.ofBits .f32 0x3D000000#32) (groupSum_apply P0 y)

end Cert.KernelIdeal.BodyValue

end
-- ==== Proof.BlockCover.lean ====
/-
  From blocks to the array. The grid is 4 × 7: point (p, q) stages rows 8p … 8p + 7 of the batch axis and 8q … 8q + 7 of
  the height axis, every channel and every column, of the argument and of the result alike. A group of eight channels lies
  inside every block, so what a point writes back is its block of the grouped product of the WHOLE argument array; the 28
  blocks tile the result array (batch row r and height row s lie in the block of point (r / 8, s / 8)), so the result array
  ends holding the grouped product.
-/
import proofs.«160404_j85985245265995_1_alg».proof.Proof.BodyRead

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.GroupProduct

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The two index maps, decided over the 28 points: the argument's block moves with the result's on the batch and height
    axes, and both sit at block 0 of the channel and width axes. -/
theorem index_facts : ∀ t : Fin cfg0.N,
    win0_0.index t (0 : Fin 4) = win0_1.index t (0 : Fin 4) ∧ win0_0.index t (1 : Fin 4) = 0 ∧ win0_1.index t (1 : Fin 4) = 0
    ∧ win0_0.index t (2 : Fin 4) = win0_1.index t (2 : Fin 4) ∧ win0_0.index t (3 : Fin 4) = 0 ∧ win0_1.index t (3 : Fin 4) = 0 :=
  (by decide +kernel : ∀ t : Fin grid0.N, _)

/-- Every (batch block, height block) pair is some point's. -/
theorem index_onto : ∀ (q0 : Fin 4) (q2 : Fin 7), ∃ t : Fin cfg0.N, win0_1.index t = ![q0.val, 0, q2.val, 0] :=
  (by decide +kernel : ∀ (q0 : Fin 4) (q2 : Fin 7), ∃ t : Fin grid0.N, win0_1.index t = ![q0.val, 0, q2.val, 0])

/-- What point `t` writes back is block `t` of the grouped product of the argument array. -/
theorem flushed_eq (c : Dev nD) (t : Fin cfg0.N) :
    (dats m 0 c).flushed 1 t = ((cfg0.win 1).blk t).view.read (Elt Ideal) (groupProduct (V m c main_arg0)) := by
  show (cfg0.win 1).cut (grid0.coords t) ((dats m 0 c).after 1 t) = _
  rw [after0_1]
  unfold out0_1
  simp only [View.ld_unit_zero (S := S8x256x8x56) zero_offsets]
  obtain ⟨e0, e1, e1', e2, e3, e3'⟩ := index_facts t
  funext j
  show View.canon ([⟨r0_0, k0_pay1 (iblk m c 0 t)⟩] : List (View.Piece (Elt Ideal) S8x256x8x56 .f32)) j
    = groupProduct (V m c main_arg0) (((cfg0.win 1).blk t).view.emb j)
  refine (Value.canon1_eq (iblk m c 0 t) j).trans ?_
  refine (BodyValue.body_apply (iblk m c 0 t) j).trans ?_
  refine block_eq_groupProduct (V m c main_arg0) (iblk m c 0 t) (((cfg0.win 1).blk t).view.emb) ?_ ?_ j
  · intro y
    show V m c main_arg0 (((cfg0.win 0).blk t).view.emb y) = V m c main_arg0 (((cfg0.win 1).blk t).view.emb y)
    refine congrArg _ (funext fun a => Fin.ext ?_)
    match a with
    | ⟨0, _⟩ => show win0_0.index t (0 : Fin 4) * 8 + 1 * (y 0).val = win0_1.index t (0 : Fin 4) * 8 + 1 * (y 0).val; omega
    | ⟨1, _⟩ => show win0_0.index t (1 : Fin 4) * 256 + 1 * (y 1).val = win0_1.index t (1 : Fin 4) * 256 + 1 * (y 1).val; omega
    | ⟨2, _⟩ => show win0_0.index t (2 : Fin 4) * 8 + 1 * (y 2).val = win0_1.index t (2 : Fin 4) * 8 + 1 * (y 2).val; omega
    | ⟨3, _⟩ => show win0_0.index t (3 : Fin 4) * 56 + 1 * (y 3).val = win0_1.index t (3 : Fin 4) * 56 + 1 * (y 3).val; omega
  · intro y k
    have hy1 : (y 1).val < 256 := (y 1).isLt
    have hk : k.val < 8 := k.isLt
    funext a; apply Fin.ext
    match a with
    | ⟨0, _⟩ => show win0_1.index t (0 : Fin 4) * 8 + 1 * (y 0).val = win0_1.index t (0 : Fin 4) * 8 + 1 * (y 0).val; rfl
    | ⟨1, _⟩ => show win0_1.index t (1 : Fin 4) * 256 + 1 * (8 * ((y 1).val / 8) + k.val) = 8 * ((win0_1.index t (1 : Fin 4) * 256 + 1 * (y 1).val) / 8) + k.val; omega
    | ⟨2, _⟩ => show win0_1.index t (2 : Fin 4) * 8 + 1 * (y 2).val = win0_1.index t (2 : Fin 4) * 8 + 1 * (y 2).val; rfl
    | ⟨3, _⟩ => show win0_1.index t (3 : Fin 4) * 56 + 1 * (y 3).val = win0_1.index t (3 : Fin 4) * 56 + 1 * (y 3).val; rfl

/-- An index of the result array is in point `t`'s block iff each coordinate is in the block's range on its axis. -/
theorem mem_block (t : Fin cfg0.N) (i : S32x256x56x56.Idx) :
    i ∈ ((cfg0.win 1).blk t).view.set ↔ ∀ a : Fin 4, win0_1.index t a * S8x256x8x56.size a ≤ (i a).val
      ∧ (i a).val < win0_1.index t a * S8x256x8x56.size a + S8x256x8x56.size a := by
  show i ∈ ((View.whole main_v0).slice (win0_1.rect t)).set ↔ _
  rw [View.set_slice_whole, Rect.mem_set_unit]
  exact Iff.rfl

/-- The blocks tile the result array: index (r, c, s, w) lies in the block of the point at (r / 8, s / 8). -/
theorem covered (i : S32x256x56x56.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, ht⟩ := index_onto ⟨(i 0).val / 8, by omega⟩ ⟨(i 2).val / 8, by omega⟩
  have q0 : win0_1.index t (0 : Fin 4) = (i 0).val / 8 := congrFun ht 0
  have q1 : win0_1.index t (1 : Fin 4) = 0 := congrFun ht 1
  have q2 : win0_1.index t (2 : Fin 4) = (i 2).val / 8 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 8 ≤ (i 0).val ∧ (i 0).val < win0_1.index t (0 : Fin 4) * 8 + 8; omega
  | ⟨1, _⟩ => show win0_1.index t (1 : Fin 4) * 256 ≤ (i 1).val ∧ (i 1).val < win0_1.index t (1 : Fin 4) * 256 + 256; omega
  | ⟨2, _⟩ => show win0_1.index t (2 : Fin 4) * 8 ≤ (i 2).val ∧ (i 2).val < win0_1.index t (2 : Fin 4) * 8 + 8; omega
  | ⟨3, _⟩ => show win0_1.index t (3 : Fin 4) * 56 ≤ (i 3).val ∧ (i 3).val < win0_1.index t (3 : Fin 4) * 56 + 56; omega

/-- The result array after the run is the grouped product of the argument array. -/
theorem final (c : Dev nD) :
    (dats m 0 c).arrAt 1 cfg0.N = groupProduct (m ((c : Thread nD τ).loc main_arg0)) :=
  (dats m 0 c).arrAt_eq_of_cover 1 (groupProduct (V m c main_arg0)) (fun t _ => flushed_eq m c t) covered

/-- The kernel's run: the result array ends at the grouped product of the argument array, which is unchanged. -/
theorem run : θ_run defs (onTc (τ := τ) (main (F := Ideal))) ⟨m, fun _ => 0, ρ⟩ fun r => ∀ c : Dev nD,
      r.2.mem ((c : Thread nD τ).loc main_v0) = groupProduct (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.lean ====
/- Grouped channel products: for an array x of shape [32, 256, 56, 56] whose 256 channels form 32 groups of eight consecutive
   channels, the result at (b, c, h, w) is x(b, c, h, w) · (Σ over the eight channels c' of c's group of x(b, c', h, w)) / 32.

   The kernel tiles the batch and height axes into 4 × 7 blocks that keep every channel, so each group is summed inside one
   block; it multiplies by the dyadic 2⁻⁵. The reference sums the groups of the whole array and divides by 32. On the extended
   reals the quotient by 32 is the product with 1/32 for every value, infinite ones included, and both sums start from zero, so
   the two results agree entry by entry and the inputs' finiteness is not used. Nothing was rewritten between the kernel and
   its idealization, and the three programs leave their argument array as it was. -/
import proofs.«160404_j85985245265995_1_alg».proof.Defs
import proofs.«160404_j85985245265995_1_alg».proof.Proof.Gen.Kernel
import proofs.«160404_j85985245265995_1_alg».proof.Proof.Gen.Kernel.Skeleton
import proofs.«160404_j85985245265995_1_alg».proof.Proof.Gen.Kernel.Launch
import proofs.«160404_j85985245265995_1_alg».proof.Proof.Gen.Kernel.Points
import proofs.«160404_j85985245265995_1_alg».proof.Proof.Gen.Kernel.Frame
import proofs.«160404_j85985245265995_1_alg».proof.Proof.Gen.KernelIdeal
import proofs.«160404_j85985245265995_1_alg».proof.Proof.Gen.KernelIdeal.Skeleton
import proofs.«160404_j85985245265995_1_alg».proof.Proof.Gen.KernelIdeal.Launch
import proofs.«160404_j85985245265995_1_alg».proof.Proof.Gen.KernelIdeal.Points
import proofs.«160404_j85985245265995_1_alg».proof.Proof.Gen.KernelIdeal.Frame
import proofs.«160404_j85985245265995_1_alg».proof.Proof.Gen.KernelIdeal.Value
import proofs.«160404_j85985245265995_1_alg».proof.Proof.Gen.ReferenceIdeal
import proofs.«160404_j85985245265995_1_alg».proof.Proof.Gen.ReferenceIdeal.Run
import proofs.«160404_j85985245265995_1_alg».proof.Proof.Gen.ReferenceIdeal.Read
import proofs.«160404_j85985245265995_1_alg».proof.Proof.Gen.Pre_finite_inputs
import proofs.«160404_j85985245265995_1_alg».proof.Proof.ReferenceRead
import proofs.«160404_j85985245265995_1_alg».proof.Proof.BlockCover
import Idealize.ShloMosaic.Adequacy
import Idealize.ShloMosaic.Init

noncomputable section

namespace Cert.Proof

open Idealize.ShloMosaic Idealize.SL.Sem

/-- The kernel as printed terminates without a fault and leaves its argument array unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the grouped product of the argument array in their result array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
